-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x16000000 : Shape := ⟨2, ![2, 16000000]⟩
abbrev S16000000 : Shape := ⟨1, ![16000000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x16 .f32) (main_arg8 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_v33

def fn {F : FTy → Type} [FloatOps F] (main_arg0 : FVec F S1000000x128 .f32) (main_arg1 : IVec S2x16000000 32) (main_arg2 : FVec F S16000000 .f32) (main_arg3 : FVec F S128x32 .f32) (main_arg4 : FVec F S32 .f32) (main_arg5 : FVec F S32x32 .f32) (main_arg6 : FVec F S32 .f32) (main_arg7 : FVec F S32x16 .f32) (main_arg8 : FVec F S16 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S1000000x128 : Shape := ⟨2, ![1000000, 128]⟩
abbrev S2x16000000 : Shape := ⟨2, ![2, 16000000]⟩
abbrev S16000000 : Shape := ⟨1, ![16000000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S1000000x16 : Shape := ⟨2, ![1000000, 16]⟩
abbrev S5000x128 : Shape := ⟨2, ![5000, 128]⟩
abbrev S5000x16 : Shape := ⟨2, ![5000, 16]⟩
abbrev S5000x32 : Shape := ⟨2, ![5000, 32]⟩

abbrev nBuf : Space → Nat
  | .hbm => 13
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S2x16000000, .i32⟩
  | .hbm, ⟨2, _⟩ => ⟨S16000000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1x32, .f32⟩
  | .hbm, ⟨10, _⟩ => ⟨S1x32, .f32⟩
  | .hbm, ⟨11, _⟩ => ⟨S1x16, .f32⟩
  | .hbm, ⟨12, _⟩ => ⟨S1000000x16, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32_S1x32 : S32.ShapeCasts S1x32
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S32x16.size a
  hwx0_5 : ∀ i : grid0.Coords, EltTy.bits .f32 = 32 ∨ (Rect.block (s := S32x16) S32x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x16.size a ≤ S1000000x16.size a
  hwx0_7 : ∀ i : grid0.Coords, EltTy.bits .f32 = 32 ∨ (Rect.block (s := S1000000x16) S5000x16.size (cc0_transform_7 i) (hinb0_7 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S5000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S2x16000000 : Shape := ⟨2, ![2, 16000000]⟩
abbrev S16000000 : Shape := ⟨1, ![16000000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1000000x32 : Shape := ⟨2, ![1000000, 32]⟩
abbrev S1x32 : Shape := ⟨2, ![1, 32]⟩
abbrev S_ : Shape := ⟨0, ![]⟩
abbrev S1000000x16 : Shape := ⟨2, ![1000000, 16]⟩
abbrev S1x16 : Shape := ⟨2, ![1, 16]⟩

abbrev nBuf : Space → Nat
  | .hbm => 27
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x16000000, .i32⟩
  | .hbm, ⟨2, _⟩ => ⟨S16000000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1000000x32, .f32⟩
  | .hbm, ⟨10, _⟩ => ⟨S1x32, .f32⟩
  | .hbm, ⟨11, _⟩ => ⟨S1000000x32, .f32⟩
  | .hbm, ⟨12, _⟩ => ⟨S1000000x32, .f32⟩
  | .hbm, ⟨13, _⟩ => ⟨S_, .f32⟩
  | .hbm, ⟨14, _⟩ => ⟨S1000000x32, .f32⟩
  | .hbm, ⟨15, _⟩ => ⟨S1000000x32, .f32⟩
  | .hbm, ⟨16, _⟩ => ⟨S1000000x32, .f32⟩
  | .hbm, ⟨17, _⟩ => ⟨S1x32, .f32⟩
  | .hbm, ⟨18, _⟩ => ⟨S1000000x32, .f32⟩
  | .hbm, ⟨19, _⟩ => ⟨S1000000x32, .f32⟩
  | .hbm, ⟨20, _⟩ => ⟨S_, .f32⟩
  | .hbm, ⟨21, _⟩ => ⟨S1000000x32, .f32⟩
  | .hbm, ⟨22, _⟩ => ⟨S1000000x32, .f32⟩
  | .hbm, ⟨23, _⟩ => ⟨S1000000x16, .f32⟩
  | .hbm, ⟨24, _⟩ => ⟨S1x16, .f32⟩
  | .hbm, ⟨25, _⟩ => ⟨S1000000x16, .f32⟩
  | .hbm, ⟨26, _⟩ => ⟨S1000000x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  dot_S1000000x128_S128x32_S1000000x32_1_0_0_1_n_n_wf : DotDims.WF S1000000x128 S128x32 S1000000x32 [1] [0] [0] [1] [] []
  dot_S1000000x32_S32x32_S1000000x32_1_0_0_1_n_n_wf : DotDims.WF S1000000x32 S32x32 S1000000x32 [1] [0] [0] [1] [] []
  dot_S1000000x32_S32x16_S1000000x16_1_0_0_1_n_n_wf : DotDims.WF S1000000x32 S32x16 S1000000x16 [1] [0] [0] [1] [] []

variable [Facts₀]

def dot_S1000000x128_S128x32_S1000000x32_1_0_0_1_n_n : DotDims S1000000x128 S128x32 S1000000x32 where
  lhsContracting := [1]
  rhsContracting := [0]
  lhsNonContracting := [0]
  rhsNonContracting := [1]
  lhsBatch := []
  rhsBatch := []
  wf := dot_S1000000x128_S128x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.MlpSpec.lean ====
/-
  The function both programs compute, row by row.

  A three-layer perceptron acts on each row of `x` independently: row `r` of the result depends on row `r` of `x` and
  on the (small) weight matrices and bias vectors, and on nothing else.  So the specification is a function of ONE row,
  `mlpRow`, built from two pieces: `denseRow a W b` sends a row `a : Fin K → EReal` to `o ↦ ∑ k, a k · W (k, o) + b o`,
  and `reluRow` clamps every entry below at the real zero (the value of the f32 word `0x00000000`).  The result array
  `G` reads `mlpRow` of row `r` of `x` at column `o`.

  Nothing here needs the inputs to be finite: both programs form the very same sums in the very same order, so no
  algebraic law of the extended reals is used beyond reading definitions.
-/
import Idealize.ShloMosaic.PureOps.Ideal.Laws
import Idealize.ShloMosaic.Lib.ValueIdx

noncomputable section

open scoped BigOperators
open Idealize.ShloMosaic Idealize.ShloMosaic.ValueIdx

namespace Cert.Mlp

/-- One dense layer on one row: `o ↦ ∑ k, a k · W (k, o) + b o`. -/
def denseRow {K N : ℕ} (a : Fin K → EReal) (W : FVec Ideal ⟨2, ![K, N]⟩ .f32) (b : Fin N → EReal) : Fin N → EReal :=
  fun o => (∑ k : Fin K, a k * W (ix2 k o)) + b o

/-- The rectifier on one row: every entry's maximum with the real zero (the f32 zero word read at the ideal values). -/
def reluRow {N : ℕ} (a : Fin N → EReal) : Fin N → EReal :=
  fun o => max (a o) (Ideal.ofBits .f32 0x00000000#32)

/-- The perceptron on one row of 128 features: dense 128→32, rectifier, dense 32→32, rectifier, dense 32→16. -/
def mlpRow (a : Fin 128 → EReal)
    (W0 : FVec Ideal ⟨2, ![128, 32]⟩ .f32) (b0 : Fin 32 → EReal)
    (W1 : FVec Ideal ⟨2, ![32, 32]⟩ .f32) (b1 : Fin 32 → EReal)
    (W2 : FVec Ideal ⟨2, ![32, 16]⟩ .f32) (b2 : Fin 16 → EReal) : Fin 16 → EReal :=
  denseRow (reluRow (denseRow (reluRow (denseRow a W0 b0)) W1 b1)) W2 b2

/-- The whole result array: entry `(r, o)` is the perceptron of row `r` of `x`, read at column `o`. -/
def G (x : FVec Ideal ⟨2, ![1000000, 128]⟩ .f32)
    (W0 : FVec Ideal ⟨2, ![128, 32]⟩ .f32) (b0 : FVec Ideal ⟨1, ![32]⟩ .f32)
    (W1 : FVec Ideal ⟨2, ![32, 32]⟩ .f32) (b1 : FVec Ideal ⟨1, ![32]⟩ .f32)
    (W2 : FVec Ideal ⟨2, ![32, 16]⟩ .f32) (b2 : FVec Ideal ⟨1, ![16]⟩ .f32) : FVec Ideal ⟨2, ![1000000, 16]⟩ .f32 :=
  fun i => mlpRow (fun k => x (ix2 (i 0) k)) W0 (fun o => b0 (ix1 o)) W1 (fun o => b1 (ix1 o)) W2 (fun o => b2 (ix1 o)) (i 1)

/-- `G` at explicit coordinates. -/
theorem G_apply (x : FVec Ideal ⟨2, ![1000000, 128]⟩ .f32)
    (W0 : FVec Ideal ⟨2, ![128, 32]⟩ .f32) (b0 : FVec Ideal ⟨1, ![32]⟩ .f32)
    (W1 : FVec Ideal ⟨2, ![32, 32]⟩ .f32) (b1 : FVec Ideal ⟨1, ![32]⟩ .f32)
    (W2 : FVec Ideal ⟨2, ![32, 16]⟩ .f32) (b2 : FVec Ideal ⟨1, ![16]⟩ .f32) (r : Fin 1000000) (o : Fin 16) :
    G x W0 b0 W1 b1 W2 b2 (ix2 r o)
      = mlpRow (fun k => x (ix2 r k)) W0 (fun o => b0 (ix1 o)) W1 (fun o => b1 (ix1 o)) W2 (fun o => b2 (ix1 o)) o := rfl

/-- A dense layer's output at `o` is determined by the row it is fed: equal rows give equal outputs. -/
theorem denseRow_congr {K N : ℕ} {a a' : Fin K → EReal} (h : ∀ k, a k = a' k) (W : FVec Ideal ⟨2, ![K, N]⟩ .f32)
    (b : Fin N → EReal) : denseRow a W b = denseRow a' W b := by
  have : a = a' := funext h
  rw [this]

end Cert.Mlp

end
-- ==== Proof.BodyIsMlp.lean ====
/-
  The kernel body's one store, read at an index.

  At a grid point the body loads a block of 5000 rows of `x`, the three weight matrices and the three biases (each bias
  as a [1, n] row), and stores ONE value: three times over, a matrix product into the zero accumulator plus the bias row
  broadcast down the rows, the first two followed by a maximum with the zero splat.  The changes of float format in
  between are the identity on extended reals.  So entry `(p, o)` of the stored block is `Mlp.mlpRow` of row `p` of the
  loaded block of `x`, read at `o`: each product reads, of its left operand, only row `p`.

  A layer is read by `layer_apply` (the product at an index is the plain sum over the contracted coordinate; the bias row
  broadcast reads its one row) and a rectifier by `relu_apply`; `pay_apply` chains them, innermost layer last.
-/
import proofs.«180104_j23416161698254_1_alg».proof.Proof.Gen.KernelIdeal.Skeleton
import proofs.«180104_j23416161698254_1_alg».proof.Proof.LibPlainMatmul
import proofs.«180104_j23416161698254_1_alg».proof.Proof.MlpSpec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Mlp

/-! ## The three products' index maps: rows of the left operand, columns of the right, one contracted coordinate -/

theorem d1_l0 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem d1_l1 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem d1_r0 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem d1_r1 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

theorem d2_l0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem d2_l1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem d2_r0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem d2_r1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

theorem d3_l0 (i : S5000x16.Idx) (q : dot_S5000x32_S32x16_S5000x16_1_0_0_1_n_n.contr.Idx) : (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem d3_l1 (i : S5000x16.Idx) (q : dot_S5000x32_S32x16_S5000x16_1_0_0_1_n_n.contr.Idx) : (dot_S5000x32_S32x16_S5000x16_1_0_0_1_n_n.lhsIdx i q 1).val = (q ⟨0, by decide⟩).val :=
  dot_S5000x32_S32x16_S5000x16_1_0_0_1_n_n.lhsIdx_val_of_single rfl i q
theorem d3_r0 (i : S5000x16.Idx) (q : dot_S5000x32_S32x16_S5000x16_1_0_0_1_n_n.contr.Idx) : (dot_S5000x32_S32x16_S5000x16_1_0_0_1_n_n.rhsIdx i q 0).val = (q ⟨0, by decide⟩).val :=
  dot_S5000x32_S32x16_S5000x16_1_0_0_1_n_n.rhsIdx_val_of_single rfl i q
theorem d3_r1 (i : S5000x16.Idx) (q : dot_S5000x32_S32x16_S5000x16_1_0_0_1_n_n.contr.Idx) : (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-! ## One layer, one rectifier -/

/-- A product of `A` and `W` (both narrowed to bf16, which changes nothing at the ideal values) into the zero
    accumulator, plus the bias row `b` broadcast down the rows, read at `(p, o)`: the dense layer applied to row `p` of
    `A`, at `o`. -/
theorem layer_apply {M K N : ℕ} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ .f32) (W : FVec Ideal ⟨2, ![K, N]⟩ .f32) (b : FVec Ideal ⟨2, ![1, N]⟩ .f32)
    (hb : FTy.bits .bf16 < FTy.bits .f32)
    (hsc : (⟨2, ![1, N]⟩ : Shape).ShapeCasts ⟨2, ![1, N]⟩) (hbc : (⟨2, ![1, N]⟩ : Shape).Broadcasts ⟨2, ![M, N]⟩)
    (p : Fin M) (o : Fin N) :
    addf (matmul d none (truncf .bf16 A hb) (truncf .bf16 W hb) (constant (F := Ideal) ⟨2, ![M, N]⟩ .f32 0x00000000#32))
        (broadcastTo ⟨2, ![M, N]⟩ (shapeCast ⟨2, ![1, N]⟩ b hsc) hbc) (ix2 p o)
      = denseRow (fun k => A (ix2 p k)) W (fun o => b (ix2 (0 : Fin 1) o)) o := by
  rw [addf_apply, shapeCast_self, broadcastTo_1b_ab_apply]
  refine congrArg (· + b (ix2 (0 : Fin 1) o)) ?_
  exact Cert.LibPlainMatmul.matmul_zero_apply d none hr hs hl0 hl1 hr0 hr1 _ _ p o

/-- A maximum with the zero splat, read at `(p, k)`: the rectifier applied to row `p`, at `k`. -/
theorem relu_apply {M N : ℕ} (X : FVec Ideal ⟨2, ![M, N]⟩ .f32) (p : Fin M) (k : Fin N) :
    maximumf X (broadcast ⟨2, ![M, N]⟩ (Scalar.ofBits (F := Ideal) .f32 0x00000000#32)) (ix2 p k)
      = reluRow (fun k' => X (ix2 p k')) k := rfl

/-! ## The stored value at `(p, o)` -/

/-- Entry `(p, o)` of the value the body stores is the perceptron of row `p` of the loaded block of `x`, at `o`. -/
theorem pay_apply (v0 : FVec Ideal S5000x128 .f32) (v2 : FVec Ideal S128x32 .f32) (v5 : FVec Ideal S1x32 .f32)
    (v12 : FVec Ideal S32x32 .f32) (v15 : FVec Ideal S1x32 .f32) (v22 : FVec Ideal S32x16 .f32) (v25 : FVec Ideal S1x16 .f32)
    (p : Fin 5000) (o : Fin 16) :
    k0_pay1 (F := Ideal) v0 v2 v5 v12 v15 v22 v25 (ix2 p o)
      = mlpRow (fun k => v0 (ix2 p k)) v2 (fun o => v5 (ix2 (0 : Fin 1) o)) v12 (fun o => v15 (ix2 (0 : Fin 1) o))
          v22 (fun o => v25 (ix2 (0 : Fin 1) o)) o := by
  unfold k0_pay1 mlpRow
  refine (layer_apply dot_S5000x32_S32x16_S5000x16_1_0_0_1_n_n rfl rfl d3_l0 d3_l1 d3_r0 d3_r1 _ _ _ _ _ _ p o).trans ?_
  refine congrFun (denseRow_congr (fun k => ?_) _ _) o
  refine (relu_apply _ p k).trans ?_
  refine congrFun (congrArg reluRow (funext fun k' => ?_)) k
  refine (layer_apply dot_S5000x32_S32x32_S5000x32_1_0_0_1_n_n rfl rfl d2_l0 d2_l1 d2_r0 d2_r1 _ _ _ _ _ _ p k').trans ?_
  refine congrFun (denseRow_congr (fun j => ?_) _ _) k'
  refine (relu_apply _ p j).trans ?_
  refine congrFun (congrArg reluRow (funext fun j' => ?_)) j
  exact layer_apply dot_S5000x128_S128x32_S5000x32_1_0_0_1_n_n rfl rfl d1_l0 d1_l1 d1_r0 d1_r1 _ _ _ _ _ _ p j'

end Cert.KernelIdeal.Body

end
-- ==== Proof.KernelIsMlp.lean ====
/-
  From the body's blocks to the whole result array.

  The grid has 200 points.  At point `t` the pipeline stages rows `5000·t … 5000·t + 4999` of `x` (block index `(t, 0)`),
  the three weight matrices and the three bias rows whole (block index `(0, 0)`), runs the body, and writes the stored
  [5000, 16] block back as rows `5000·t … 5000·t + 4999` of the result.  The bias rows are [1, n] arrays that @main
  made from the [n] arguments by a reshape before the region; read at `(0, o)` they are the argument at `o`.

  So what point `t` writes back is block `t` of `Mlp.G` of the arguments (`flushed_eq`): entry `(p, o)` of the stored
  value is the perceptron of row `p` of the staged block of `x` (`Body.pay_apply`), which is row `5000·t + p` of `x`.
  The 200 blocks tile the result's million rows (row `r` is in the block of point `r / 5000`), so after the run the
  result array IS `Mlp.G` of the arguments.
-/
import proofs.«180104_j23416161698254_1_alg».proof.Proof.Gen.KernelIdeal.Value
import proofs.«180104_j23416161698254_1_alg».proof.Proof.BodyIsMlp
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body Cert.Mlp
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 200 points -/

/-- The block of `x` and of the result move with the point; every other window sits at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays as the region finds them -/

/-- The argument arrays, under short names at their literal types. -/
abbrev X (c : Dev nD) : FVec Ideal S1000000x128 .f32 := m ((c : Thread nD τ).loc main_arg0)
abbrev W0 (c : Dev nD) : FVec Ideal S128x32 .f32 := m ((c : Thread nD τ).loc main_arg3)
abbrev B0 (c : Dev nD) : FVec Ideal S32 .f32 := m ((c : Thread nD τ).loc main_arg4)
abbrev W1 (c : Dev nD) : FVec Ideal S32x32 .f32 := m ((c : Thread nD τ).loc main_arg5)
abbrev B1 (c : Dev nD) : FVec Ideal S32 .f32 := m ((c : Thread nD τ).loc main_arg6)
abbrev W2 (c : Dev nD) : FVec Ideal S32x16 .f32 := m ((c : Thread nD τ).loc main_arg7)
abbrev B2 (c : Dev nD) : FVec Ideal S16 .f32 := m ((c : Thread nD τ).loc main_arg8)

/-- The result array both programs end with. -/
abbrev Gm (c : Dev nD) : FVec Ideal S1000000x16 .f32 := G (X m c) (W0 m c) (B0 m c) (W1 m c) (B1 m c) (W2 m c) (B2 m c)

/-- The first bias as the [1, 32] row the reshape made of it. -/
theorem V_v0 (c : Dev nD) : (V m c main_v0 : S1x32.Idx → EReal) = shapeCast S1x32 (B0 m c) shapeCasts_S32_S1x32 := by
  dsimp only [Gen.V, Gen.hostOps0]; after_results; rfl
/-- The second bias as a [1, 32] row. -/
theorem V_v1 (c : Dev nD) : (V m c main_v1 : S1x32.Idx → EReal) = shapeCast S1x32 (B1 m c) shapeCasts_S32_S1x32 := by
  dsimp only [Gen.V, Gen.hostOps0]; after_results; rfl
/-- The third bias as a [1, 16] row. -/
theorem V_v2 (c : Dev nD) : (V m c main_v2 : S1x16.Idx → EReal) = shapeCast S1x16 (B2 m c) shapeCasts_S16_S1x16 := by
  dsimp only [Gen.V, Gen.hostOps0]; after_results; rfl

/-! ## Each staged block, read at coordinates -/

/-- Row `p` of the block of `x` at point `t` is row `5000·t + p` of `x`. -/
theorem xblk_apply (c : Dev nD) (t : Fin cfg0.N) (p : Fin 5000) (k : Fin 128) (r : Fin 1000000) (hr : r.val = 5000 * t.val + p.val) :
    (iblk m c 0 t : FVec Ideal S5000x128 .f32) (ix2 p k) = X m c (ix2 r k) := by
  obtain ⟨e0, e1, -⟩ := idx_facts t
  unfold iblk
  rw [View.read_apply]
  show V m c main_arg0 _ = _
  rw [V_main_arg0]
  show X m c _ = X m c _
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The staged first weight matrix is the argument, whole. -/
theorem w0blk_eq (c : Dev nD) (t : Fin cfg0.N) : (iblk m c 1 t : FVec Ideal S128x32 .f32) = W0 m c := by
  obtain ⟨-, -, e0, e1, -, -, -, -, -, -, -, -, -, -, -, -⟩ := idx_facts t
  funext j
  obtain ⟨a, b, rfl⟩ : ∃ (a : Fin 128) (b : Fin 32), j = ix2 a b := ⟨j 0, j 1, eq_ix2 j⟩
  unfold iblk
  rw [View.read_apply]
  show V m c main_arg3 _ = _
  rw [V_main_arg3]
  show W0 m c _ = W0 m c _
  congr 1
  funext ax; apply Fin.ext
  match ax with
  | ⟨0, _⟩ => show win0_1.index t (0 : Fin 2) * 128 + 1 * a.val = a.val; rw [e0]; omega
  | ⟨1, _⟩ => show win0_1.index t (1 : Fin 2) * 32 + 1 * b.val = b.val; rw [e1]; omega

/-- The staged second weight matrix is the argument, whole. -/
theorem w1blk_eq (c : Dev nD) (t : Fin cfg0.N) : (iblk m c 3 t : FVec Ideal S32x32 .f32) = W1 m c := by
  obtain ⟨-, -, -, -, -, -, e0, e1, -, -, -, -, -, -, -, -⟩ := idx_facts t
  funext j
  obtain ⟨a, b, rfl⟩ : ∃ (a : Fin 32) (b : Fin 32), j = ix2 a b := ⟨j 0, j 1, eq_ix2 j⟩
  unfold iblk
  rw [View.read_apply]
  show V m c main_arg5 _ = _
  rw [V_main_arg5]
  show W1 m c _ = W1 m c _
  congr 1
  funext ax; apply Fin.ext
  match ax with
  | ⟨0, _⟩ => show win0_3.index t (0 : Fin 2) * 32 + 1 * a.val = a.val; rw [e0]; omega
  | ⟨1, _⟩ => show win0_3.index t (1 : Fin 2) * 32 + 1 * b.val = b.val; rw [e1]; omega

/-- The staged third weight matrix is the argument, whole. -/
theorem w2blk_eq (c : Dev nD) (t : Fin cfg0.N) : (iblk m c 5 t : FVec Ideal S32x16 .f32) = W2 m c := by
  obtain ⟨-, -, -, -, -, -, -, -, -, -, e0, e1, -, -, -, -⟩ := idx_facts t
  funext j
  obtain ⟨a, b, rfl⟩ : ∃ (a : Fin 32) (b : Fin 16), j = ix2 a b := ⟨j 0, j 1, eq_ix2 j⟩
  unfold iblk
  rw [View.read_apply]
  show V m c main_arg7 _ = _
  rw [V_main_arg7]
  show W2 m c _ = W2 m c _
  congr 1
  funext ax; apply Fin.ext
  match ax with
  | ⟨0, _⟩ => show win0_5.index t (0 : Fin 2) * 32 + 1 * a.val = a.val; rw [e0]; omega
  | ⟨1, _⟩ => show win0_5.index t (1 : Fin 2) * 16 + 1 * b.val = b.val; rw [e1]; omega

/-- The staged first bias row at `(0, o)` is the argument at `o`. -/
theorem b0blk_apply (c : Dev nD) (t : Fin cfg0.N) (o : Fin 32) :
    (iblk m c 2 t : FVec Ideal S1x32 .f32) (ix2 (0 : Fin 1) o) = B0 m c (ix1 o) := by
  obtain ⟨-, -, -, -, e0, e1, -, -, -, -, -, -, -, -, -, -⟩ := idx_facts t
  unfold iblk
  rw [View.read_apply]
  show (V m c main_v0 : S1x32.Idx → EReal) _ = _
  rw [V_v0]
  refine Eq.trans ?_ (shapeCast_a_1a_apply (B0 m c) shapeCasts_S32_S1x32 (0 : Fin 1) o)
  congr 1
  funext ax; apply Fin.ext
  match ax with
  | ⟨0, _⟩ => show win0_2.index t (0 : Fin 2) * 1 + 1 * 0 = 0; rw [e0]
  | ⟨1, _⟩ => show win0_2.index t (1 : Fin 2) * 32 + 1 * o.val = o.val; rw [e1]; omega

/-- The staged second bias row at `(0, o)` is the argument at `o`. -/
theorem b1blk_apply (c : Dev nD) (t : Fin cfg0.N) (o : Fin 32) :
    (iblk m c 4 t : FVec Ideal S1x32 .f32) (ix2 (0 : Fin 1) o) = B1 m c (ix1 o) := by
  obtain ⟨-, -, -, -, -, -, -, -, e0, e1, -, -, -, -, -, -⟩ := idx_facts t
  unfold iblk
  rw [View.read_apply]
  show (V m c main_v1 : S1x32.Idx → EReal) _ = _
  rw [V_v1]
  refine Eq.trans ?_ (shapeCast_a_1a_apply (B1 m c) shapeCasts_S32_S1x32 (0 : Fin 1) o)
  congr 1
  funext ax; apply Fin.ext
  match ax with
  | ⟨0, _⟩ => show win0_4.index t (0 : Fin 2) * 1 + 1 * 0 = 0; rw [e0]
  | ⟨1, _⟩ => show win0_4.index t (1 : Fin 2) * 32 + 1 * o.val = o.val; rw [e1]; omega

/-- The staged third bias row at `(0, o)` is the argument at `o`. -/
theorem b2blk_apply (c : Dev nD) (t : Fin cfg0.N) (o : Fin 16) :
    (iblk m c 6 t : FVec Ideal S1x16 .f32) (ix2 (0 : Fin 1) o) = B2 m c (ix1 o) := by
  obtain ⟨-, -, -, -, -, -, -, -, -, -, -, -, e0, e1, -, -⟩ := idx_facts t
  unfold iblk
  rw [View.read_apply]
  show (V m c main_v2 : S1x16.Idx → EReal) _ = _
  rw [V_v2]
  refine Eq.trans ?_ (shapeCast_a_1a_apply (B2 m c) shapeCasts_S16_S1x16 (0 : Fin 1) o)
  congr 1
  funext ax; apply Fin.ext
  match ax with
  | ⟨0, _⟩ => show win0_6.index t (0 : Fin 2) * 1 + 1 * 0 = 0; rw [e0]
  | ⟨1, _⟩ => show win0_6.index t (1 : Fin 2) * 16 + 1 * o.val = o.val; rw [e1]; omega

/-! ## What a point writes back, the cover, the array -/

/-- WHAT POINT `t` WRITES BACK is block `t` of `G` of the arguments: entry `(p, o)` of the stored value is the perceptron
    of row `p` of the staged block of `x`, that is of row `5000·t + p` of `x`, with the staged weights and biases the
    arguments themselves. -/
theorem flushed_eq (c : Dev nD) (t : Fin cfg0.N) :
    (dats m 0 c).flushed 7 t = ((cfg0.win 7).blk t).view.read (Elt Ideal) (Gm m c) := by
  obtain ⟨-, -, -, -, -, -, -, -, -, -, -, -, -, -, e0, e1⟩ := idx_facts t
  have hN : cfg0.N = 200 := N_0
  have ht : t.val < 200 := hN ▸ t.isLt
  rw [Value.flushed7]
  unfold out0_7
  rw [View.canon_unit_zero hz]
  simp only [View.ld_unit_zero (S := S5000x128) hz, View.ld_unit_zero (S := S128x32) hz, View.ld_unit_zero (S := S1x32) hz,
    View.ld_unit_zero (S := S32x32) hz, View.ld_unit_zero (S := S32x16) hz, View.ld_unit_zero (S := S1x16) hz]
  funext j
  obtain ⟨p, o, rfl⟩ : ∃ (p : Fin 5000) (o : Fin 16), j = ix2 p o := ⟨j 0, j 1, eq_ix2 j⟩
  have hp : p.val < 5000 := p.isLt
  rw [View.read_apply]
  have hemb : ((cfg0.win 7).blk t).view.emb (ix2 p o) = (ix2 (⟨5000 * t.val + p.val, by omega⟩ : Fin 1000000) o : S1000000x16.Idx) := by
    funext ax; apply Fin.ext
    match ax with
    | ⟨0, _⟩ => show win0_7.index t (0 : Fin 2) * 5000 + 1 * p.val = 5000 * t.val + p.val; rw [e0]; omega
    | ⟨1, _⟩ => show win0_7.index t (1 : Fin 2) * 16 + 1 * o.val = o.val; rw [e1]; omega
  rw [hemb]
  show k0_pay1 (F := Ideal) (iblk m c 0 t) (iblk m c 1 t) (iblk m c 2 t) (iblk m c 3 t) (iblk m c 4 t) (iblk m c 5 t) (iblk m c 6 t) (ix2 p o) = _
  refine (pay_apply (iblk m c 0 t) (iblk m c 1 t) (iblk m c 2 t) (iblk m c 3 t) (iblk m c 4 t) (iblk m c 5 t) (iblk m c 6 t) p o).trans ?_
  refine Eq.trans ?_ (G_apply (X m c) (W0 m c) (B0 m c) (W1 m c) (B1 m c) (W2 m c) (B2 m c) ⟨5000 * t.val + p.val, by omega⟩ o).symm
  rw [w0blk_eq m c t, w1blk_eq m c t, w2blk_eq m c t,
    show (fun k => (iblk m c 0 t : FVec Ideal S5000x128 .f32) (ix2 p k)) = (fun k => X m c (ix2 (⟨5000 * t.val + p.val, by omega⟩ : Fin 1000000) k)) from
      funext fun k => xblk_apply m c t p k _ rfl,
    show (fun o => (iblk m c 2 t : FVec Ideal S1x32 .f32) (ix2 (0 : Fin 1) o)) = (fun o => B0 m c (ix1 o)) from funext fun o => b0blk_apply m c t o,
    show (fun o => (iblk m c 4 t : FVec Ideal S1x32 .f32) (ix2 (0 : Fin 1) o)) = (fun o => B1 m c (ix1 o)) from funext fun o => b1blk_apply m c t o,
    show (fun o => (iblk m c 6 t : FVec Ideal S1x16 .f32) (ix2 (0 : Fin 1) o)) = (fun o => B2 m c (ix1 o)) from funext fun o => b2blk_apply m c t o]

/-- A result index is in point `t`'s block iff each coordinate is in the block's range on its axis. -/
theorem mem_blk (t : Fin cfg0.N) (i : S1000000x16.Idx) :
    i ∈ ((cfg0.win 7).blk t).view.set ↔ ∀ a : Fin 2, win0_7.index t a * S5000x16.size a ≤ (i a).val ∧ (i a).val < win0_7.index t a * S5000x16.size a + S5000x16.size a := by
  show i ∈ ((View.whole main_v3).slice (win0_7.rect t)).set ↔ _
  rw [View.set_slice_whole, Rect.mem_set_unit]
  exact Iff.rfl

/-- Every result index is in some point's block: row `r` in the block of point `r / 5000`. -/
theorem cover (i : S1000000x16.Idx) : ∃ t : Fin cfg0.N, (cfg0.win 7).flush t = true ∧ i ∈ ((cfg0.win 7).blk t).view.set := by
  have hN : cfg0.N = 200 := N_0
  have hi0 : (i 0).val < 1000000 := (i 0).isLt
  have hi1 : (i 1).val < 16 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 16 ≤ (i 1).val ∧ (i 1).val < win0_7.index t (1 : Fin 2) * 16 + 16; rw [e1]; omega

/-- THE RESULT ARRAY after the run is `G` of the arguments. -/
theorem final (c : Dev nD) : (dats m 0 c).arrAt 7 cfg0.N = Gm m c :=
  (dats m 0 c).arrAt_eq_of_cover 7 (Gm m c) (fun t _ => flushed_eq m c t) cover

/-! ## The run, read -/

/-- Every weakly fair execution of the idealized kernel program ends with the result array at `G` of the arguments and
    the arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.KernelIdeal.Whole

end
-- ==== Proof.RefIsMlp.lean ====
/-
  The reference's result, read one layer at a time, is the row-wise perceptron.

  The reference is three times `dot_general` plus a bias broadcast to every row, the first two followed by a maximum
  with the zero constant broadcast to the whole array.  Read at `(r, o)`: the product is the sum over the contracted
  coordinate `k` of the left operand at `(r, k)` times the weight at `(k, o)`; the bias, broadcast first to a [1, n]
  row and then down the rows, reads its entry `o`; the maximum reads both operands at `(r, o)`.  So every stage at
  `(r, ·)` is a function of the previous stage at `(r, ·)` alone, and the last stage is `Mlp.G`.
-/
import proofs.«180104_j23416161698254_1_alg».proof.Proof.Gen.ReferenceIdeal.Read
import proofs.«180104_j23416161698254_1_alg».proof.Proof.MlpSpec

noncomputable section

open scoped BigOperators

namespace Cert.ReferenceIdeal.RefValue

open Cert.ReferenceIdeal Cert.ReferenceIdeal.Read Idealize.ShloMosaic Idealize.ShloMosaic.ValueIdx Cert.Mlp

variable (x0 : (⟨S1000000x128, .f32⟩ : BufTy).Contents (Elt Ideal)) (x3 : (⟨S128x32, .f32⟩ : BufTy).Contents (Elt Ideal)) (x4 : (⟨S32, .f32⟩ : BufTy).Contents (Elt Ideal))
  (x5 : (⟨S32x32, .f32⟩ : BufTy).Contents (Elt Ideal)) (x6 : (⟨S32, .f32⟩ : BufTy).Contents (Elt Ideal)) (x7 : (⟨S32x16, .f32⟩ : BufTy).Contents (Elt Ideal)) (x8 : (⟨S16, .f32⟩ : BufTy).Contents (Elt Ideal))

/-- First dense layer at `(r, o)`: row `r` of `x` through `W0`, `b0`. -/
theorem v3_apply (r : Fin 1000000) (o : Fin 32) :
    val_main_v3 (F := Ideal) x0 x3 x4 (ix2 r o) = denseRow (fun k => x0 (ix2 r k)) x3 (fun o => x4 (ix1 o)) o := by
  rw [val_main_v3_apply, val_main_v0_apply, val_main_v2_apply, val_main_v1_apply]
  have hl : ∀ k, lidx_main_v0 (ix2 r o) k = ix2 r k := fun k => funext fun a => by
    match a with | ⟨0, _⟩ => rfl | ⟨1, _⟩ => rfl
  have hr : ∀ k, ridx_main_v0 (ix2 r o) k = ix2 k o := fun k => funext fun a => by
    match a with | ⟨0, _⟩ => rfl | ⟨1, _⟩ => rfl
  have hb : idx_main_v1 (idx_main_v2 (ix2 r o)) = ix1 o := funext fun a => by
    match a with | ⟨0, _⟩ => rfl
  simp only [hl, hr, hb]
  rfl

/-- First rectifier at `(r, k)`. -/
theorem v4_apply (r : Fin 1000000) (k : Fin 32) :
    val_main_v4 (F := Ideal) x0 x3 x4 (ix2 r k) = reluRow (denseRow (fun k => x0 (ix2 r k)) x3 (fun o => x4 (ix1 o))) k := by
  rw [val_main_v4_apply, val_main_call0_v0_apply, val_main_call0_cst_apply, v3_apply]
  rfl

/-- Second dense layer at `(r, o)`. -/
theorem v8_apply (r : Fin 1000000) (o : Fin 32) :
    val_main_v8 (F := Ideal) x0 x3 x4 x5 x6 (ix2 r o)
      = denseRow (reluRow (denseRow (fun k => x0 (ix2 r k)) x3 (fun o => x4 (ix1 o)))) x5 (fun o => x6 (ix1 o)) o := by
  rw [val_main_v8_apply, val_main_v5_apply, val_main_v7_apply, val_main_v6_apply]
  have hl : ∀ k, lidx_main_v5 (ix2 r o) k = ix2 r k := fun k => funext fun a => by
    match a with | ⟨0, _⟩ => rfl | ⟨1, _⟩ => rfl
  have hr : ∀ k, ridx_main_v5 (ix2 r o) k = ix2 k o := fun k => funext fun a => by
    match a with | ⟨0, _⟩ => rfl | ⟨1, _⟩ => rfl
  have hb : idx_main_v6 (idx_main_v7 (ix2 r o)) = ix1 o := funext fun a => by
    match a with | ⟨0, _⟩ => rfl
  simp only [hl, hr, hb, v4_apply]
  rfl

/-- Second rectifier at `(r, k)`. -/
theorem v9_apply (r : Fin 1000000) (k : Fin 32) :
    val_main_v9 (F := Ideal) x0 x3 x4 x5 x6 (ix2 r k)
      = reluRow (denseRow (reluRow (denseRow (fun k => x0 (ix2 r k)) x3 (fun o => x4 (ix1 o)))) x5 (fun o => x6 (ix1 o))) k := by
  rw [val_main_v9_apply, val_main_call1_v0_apply, val_main_call1_cst_apply, v8_apply]
  rfl

/-- Third dense layer at `(r, o)`: the perceptron of row `r`. -/
theorem v13_apply (r : Fin 1000000) (o : Fin 16) :
    val_main_v13 (F := Ideal) x0 x3 x4 x5 x6 x7 x8 (ix2 r o)
      = mlpRow (fun k => x0 (ix2 r k)) x3 (fun o => x4 (ix1 o)) x5 (fun o => x6 (ix1 o)) x7 (fun o => x8 (ix1 o)) o := by
  rw [val_main_v13_apply, val_main_v10_apply, val_main_v12_apply, val_main_v11_apply]
  have hl : ∀ k, lidx_main_v10 (ix2 r o) k = ix2 r k := fun k => funext fun a => by
    match a with | ⟨0, _⟩ => rfl | ⟨1, _⟩ => rfl
  have hr : ∀ k, ridx_main_v10 (ix2 r o) k = ix2 k o := fun k => funext fun a => by
    match a with | ⟨0, _⟩ => rfl | ⟨1, _⟩ => rfl
  have hb : idx_main_v11 (idx_main_v12 (ix2 r o)) = ix1 o := funext fun a => by
    match a with | ⟨0, _⟩ => rfl
  simp only [hl, hr, hb, v9_apply]
  rfl

/-- The reference's last stage is `G` of the arguments. -/
theorem ref_eq_G : val_main_v13 (F := Ideal) x0 x3 x4 x5 x6 x7 x8 = G x0 x3 x4 x5 x6 x7 x8 := by
  funext i
  obtain ⟨r, o, rfl⟩ : ∃ (r : Fin 1000000) (o : Fin 16), i = ix2 r o := ⟨i 0, i 1, eq_ix2 i⟩
  exact (v13_apply x0 x3 x4 x5 x6 x7 x8 r o).trans (G_apply x0 x3 x4 x5 x6 x7 x8 r o).symm

end Cert.ReferenceIdeal.RefValue

end
-- ==== Proof.lean ====
/-
  A three-layer perceptron applied to each of a million rows, as a Pallas kernel against plain jnp.

  The kernel walks the rows in 200 blocks of 5000.  On each block it forms `relu(x·W0 + b0)`, `relu(·W1 + b1)`,
  `·W2 + b2` with the operands of every product narrowed to bf16 and the product accumulated in f32 from zero.  The
  reference forms the same three affine maps and two rectifiers on the whole array at once.  Over the extended reals a
  change of float format is the identity and a product into the zero accumulator is the plain sum over the contracted
  coordinate, so both programs compute, at row `r` and column `o`, the very same expression of row `r` of `x`:
  `Mlp.mlpRow` (Proof/MlpSpec.lean).  No sum is reordered and nothing is cancelled, so the finiteness of the inputs is
  never used.  The edge arrays are accepted by both programs and read by neither.

  The pieces: Proof/BodyIsMlp.lean reads the value the kernel body stores at an index; Proof/KernelIsMlp.lean carries
  that from the 200 blocks to the whole result array (`Whole.run`); Proof/RefIsMlp.lean reads the reference's last
  stage (`RefValue.ref_eq_G`).  Here the two runs are set side by side.  The idealization rewrote nothing, so the
  `preserves` claim is `True`.
-/
import proofs.«180104_j23416161698254_1_alg».proof.Defs
import proofs.«180104_j23416161698254_1_alg».proof.Proof.Gen.Kernel
import proofs.«180104_j23416161698254_1_alg».proof.Proof.Gen.Kernel.Skeleton
import proofs.«180104_j23416161698254_1_alg».proof.Proof.Gen.Kernel.Launch
import proofs.«180104_j23416161698254_1_alg».proof.Proof.Gen.Kernel.Points
import proofs.«180104_j23416161698254_1_alg».proof.Proof.Gen.Kernel.Frame
import proofs.«180104_j23416161698254_1_alg».proof.Proof.Gen.KernelIdeal
import proofs.«180104_j23416161698254_1_alg».proof.Proof.Gen.KernelIdeal.Skeleton
import proofs.«180104_j23416161698254_1_alg».proof.Proof.Gen.KernelIdeal.Launch
import proofs.«180104_j23416161698254_1_alg».proof.Proof.Gen.KernelIdeal.Points
import proofs.«180104_j23416161698254_1_alg».proof.Proof.Gen.KernelIdeal.Frame
import proofs.«180104_j23416161698254_1_alg».proof.Proof.Gen.ReferenceIdeal
import proofs.«180104_j23416161698254_1_alg».proof.Proof.Gen.Pre_finite_inputs
import proofs.«180104_j23416161698254_1_alg».proof.Proof.Gen.KernelIdeal.Value
import proofs.«180104_j23416161698254_1_alg».proof.Proof.Gen.ReferenceIdeal.Run
import proofs.«180104_j23416161698254_1_alg».proof.Proof.Gen.ReferenceIdeal.Read
import proofs.«180104_j23416161698254_1_alg».proof.Proof.KernelIsMlp
import proofs.«180104_j23416161698254_1_alg».proof.Proof.RefIsMlp
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments alone: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array ends at `Mlp.G` of its arguments and the
    reference's at its last stage, which is `Mlp.G` of the reference's arguments: the same array. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, -, a3, a4, a5, a6, a7, a8⟩ := hagree c
  rw [Cert.ReferenceIdeal.Read.val_main_v13_eq, Cert.ReferenceIdeal.RefValue.ref_eq_G, a0, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
